-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288 : Shape := ⟨1, ![524288]⟩
abbrev S4096 : Shape := ⟨1, ![4096]⟩
abbrev S4096x128 : Shape := ⟨2, ![4096, 128]⟩
abbrev S_ : Shape := ⟨0, ![]⟩

class Facts : Prop where
  bcast_S_S524288 : S_.BroadcastsInDim S524288 (![] : Fin 0 → Fin S524288.rank)
  reducesTo_S524288_S_d0 : S524288.ReducesTo [0] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S524288 .f32) (main_arg1 : IVec S4096 32) (main_arg2 : IVec S4096x128 32) : IVec S_ 1 :=
  let main_v0 : FVec F S524288 .f32 := Host.absf main_arg0
  let main_cst : FVec F S_ .f32 := constant S_ .f32 0x7F800000#32
  let main_v1 : FVec F S524288 .f32 := broadcastInDim S524288 ![] bcast_S_S524288 main_cst
  let main_v2 : IVec S524288 1 := cmpf .olt main_v0 main_v1
  let main_c : IVec S_ 1 := constantI S_ 1 1#1
  let main_v3 : IVec S_ 1 := (fun x v => Host.reduce IntOp.andi x v reducesTo_S524288_S_d0 h_S_) main_v2 main_c
  let main_c_0 : IVec S_ 32 := constantI S_ 32 4294967168#32
  let main_v4 : IVec S4096x128 32 := broadcastInDim S4096x128 ![] bcast_S_S4096x128 main_c_0
  let main_v5 : IVec S4096x128 1 := cmpi .sge main_arg2 main_v4
  let main_c_1 : IVec S_ 1 := constantI S_ 1 1#1
  let main_v6 : IVec S_ 1 := (fun x v => Host.reduce IntOp.andi x v reducesTo_S4096x128_S_d0_1 h_S_) main_v5 main_c_1
  let main_v7 : IVec S_ 1 := andi main_v3 main_v6
  main_v7
-- ==== Kernel.lean ====
abbrev S524288 : Shape := ⟨1, ![524288]⟩
abbrev S4096 : Shape := ⟨1, ![4096]⟩
abbrev S4096x128 : Shape := ⟨2, ![4096, 128]⟩
abbrev S64x1x128 : Shape := ⟨3, ![64, 1, 128]⟩
abbrev S64x128 : Shape := ⟨2, ![64, 128]⟩
abbrev S1x1x128 : Shape := ⟨3, ![1, 1, 128]⟩
abbrev S64x128x1 : Shape := ⟨3, ![64, 128, 1]⟩
abbrev S64x128x128 : Shape := ⟨3, ![64, 128, 128]⟩
abbrev S64 : Shape := ⟨1, ![64]⟩
abbrev S64x1 : Shape := ⟨2, ![64, 1]⟩
abbrev S1 : Shape := ⟨1, ![1]⟩
abbrev S1x1 : Shape := ⟨2, ![1, 1]⟩
abbrev S1x1x1 : Shape := ⟨3, ![1, 1, 1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S524288, .f32⟩
  | .hbm, ⟨1, _⟩ => ⟨S4096, .i32⟩
  | .hbm, ⟨2, _⟩ => ⟨S4096x128, .i32⟩
  | .hbm, ⟨3, _⟩ => ⟨S4096x128, .f32⟩
  | .hbm, ⟨4, _⟩ => ⟨S64x1x128, .f32⟩
  | .hbm, ⟨5, _⟩ => ⟨S_, .f32⟩
  | .hbm, ⟨6, _⟩ => ⟨S_, .f32⟩
  | .local _ .vmem, ⟨0, _⟩ => ⟨S64x128, .f32⟩
  | .local _ .vmem, ⟨1, _⟩ => ⟨S64x128, .f32⟩
  | .local _ .vmem, ⟨2, _⟩ => ⟨S64x128, .i32⟩
  | .local _ .vmem, ⟨3, _⟩ => ⟨S64x128, .i32⟩
  | .local _ .vmem, ⟨4, _⟩ => ⟨S1x1x128, .f32⟩
  | .local _ .vmem, ⟨5, _⟩ => ⟨S1x1x128, .f32⟩
  | _, _ => ⟨S524288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S524288_S4096x128 : S524288.ShapeCasts S4096x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x128_S64x128x1 : S64x128.ShapeCasts S64x128x1
  shapeCasts_S64x128x1_S64x128 : S64x128x1.ShapeCasts S64x128
  shapeCasts_S64x128_S64x1x128 : S64x128.ShapeCasts S64x1x128
  broadcasts_S64x1x128_S64x128x128 : S64x1x128.Broadcasts S64x128x128
  broadcasts_S64x128x1_S64x128x128 : S64x128x1.Broadcasts S64x128x128
  iota_S64x128x128_d2_w32 : S64x128x128.Iotas .tc 32 [2]
  natLt_1_32 : 1 < 32
  reduces_S64x128x128_S64x128 : S64x128x128.Reduces [2] S64x128
  reduces_S64x128_S64 : S64x128.Reduces [1] S64
  shapeCasts_S64_S64x1 : S64.ShapeCasts S64x1
  reduces_S64x1_S1 : S64x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  reducesTo_S64x1x128_S_d0_1_2 : S64x1x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S4096x128.size a
  hwx0_0 : ∀ i : grid0.Coords, EltTy.bits .f32 = 32 ∨ (Rect.block (s := S4096x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S4096x128.size a
  hwx0_1 : ∀ i : grid0.Coords, EltTy.bits .i32 = 32 ∨ (Rect.block (s := S4096x128) S64x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S64x1x128.size a
  hwx0_2 : ∀ i : grid0.Coords, EltTy.bits .f32 = 32 ∨ (Rect.block (s := S64x1x128) S1x1x128.size (cc0_transform_2 i) (hinb0_2 i)).WholeWords (EltTy.packing .f32)

variable [Facts₀]

abbrev win0_0 : Pipeline.Window sig grid0 :=
  Pipeline.Window.ofSpec (Memref.whole main_v0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S524288 : Shape := ⟨1, ![524288]⟩
abbrev S4096 : Shape := ⟨1, ![4096]⟩
abbrev S4096x128 : Shape := ⟨2, ![4096, 128]⟩
abbrev S_ : Shape := ⟨0, ![]⟩
abbrev S4096x128x1 : Shape := ⟨3, ![4096, 128, 1]⟩
abbrev S1 : Shape := ⟨1, ![1]⟩
abbrev S1x1x1 : Shape := ⟨3, ![1, 1, 1]⟩
abbrev S4096x1x128 : Shape := ⟨3, ![4096, 1, 128]⟩
abbrev S4096x128x128 : Shape := ⟨3, ![4096, 128, 128]⟩
abbrev S128 : Shape := ⟨1, ![128]⟩
abbrev S1x1x128 : Shape := ⟨3, ![1, 1, 128]⟩

abbrev nBuf : Space → Nat
  | .hbm => 49
  | .vmem => 0
  | .smem => 0
  | _ => 0

abbrev bufTy : (tb : Table) → Fin (tcTables nBuf tb) → BufTy
  | .hbm, ⟨0, _⟩ => ⟨S524288, .f32⟩
  | .hbm, ⟨1, _⟩ => ⟨S4096, .i32⟩
  | .hbm, ⟨2, _⟩ => ⟨S4096x128, .i32⟩
  | .hbm, ⟨3, _⟩ => ⟨S4096x128, .f32⟩
  | .hbm, ⟨4, _⟩ => ⟨S_, .i32⟩
  | .hbm, ⟨5, _⟩ => ⟨S4096x128, .i32⟩
  | .hbm, ⟨6, _⟩ => ⟨S4096x128, .i1⟩
  | .hbm, ⟨7, _⟩ => ⟨S_, .i32⟩
  | .hbm, ⟨8, _⟩ => ⟨S4096x128, .i32⟩
  | .hbm, ⟨9, _⟩ => ⟨S4096x128, .i32⟩
  | .hbm, ⟨10, _⟩ => ⟨S4096x128, .i32⟩
  | .hbm, ⟨11, _⟩ => ⟨S4096x128x1, .i32⟩
  | .hbm, ⟨12, _⟩ => ⟨S1, .i32⟩
  | .hbm, ⟨13, _⟩ => ⟨S_, .i32⟩
  | .hbm, ⟨14, _⟩ => ⟨S4096x128x1, .i32⟩
  | .hbm, ⟨15, _⟩ => ⟨S4096x128x1, .i1⟩
  | .hbm, ⟨16, _⟩ => ⟨S1x1x1, .i32⟩
  | .hbm, ⟨17, _⟩ => ⟨S4096x128x1, .i32⟩
  | .hbm, ⟨18, _⟩ => ⟨S4096x128x1, .i1⟩
  | .hbm, ⟨19, _⟩ => ⟨S4096x128x1, .i1⟩
  | .hbm, ⟨20, _⟩ => ⟨S_, .i1⟩
  | .hbm, ⟨21, _⟩ => ⟨S4096x128, .i1⟩
  | .hbm, ⟨22, _⟩ => ⟨S4096x128, .f32⟩
  | .hbm, ⟨23, _⟩ => ⟨S_, .f32⟩
  | .hbm, ⟨24, _⟩ => ⟨S4096x128, .f32⟩
  | .hbm, ⟨25, _⟩ => ⟨S4096x128, .f32⟩
  | .hbm, ⟨26, _⟩ => ⟨S4096x1x128, .f32⟩
  | .hbm, ⟨27, _⟩ => ⟨S4096x128x1, .f32⟩
  | .hbm, ⟨28, _⟩ => ⟨S4096x128x128, .f32⟩
  | .hbm, ⟨29, _⟩ => ⟨S4096x128x128, .f32⟩
  | .hbm, ⟨30, _⟩ => ⟨S4096x128x128, .f32⟩
  | .hbm, ⟨31, _⟩ => ⟨S_, .f32⟩
  | .hbm, ⟨32, _⟩ => ⟨S4096x128x128, .f32⟩
  | .hbm, ⟨33, _⟩ => ⟨S4096x128x128, .f32⟩
  | .hbm, ⟨34, _⟩ => ⟨S128, .i32⟩
  | .hbm, ⟨35, _⟩ => ⟨S1x1x128, .i32⟩
  | .hbm, ⟨36, _⟩ => ⟨S4096x128x1, .i32⟩
  | .hbm, ⟨37, _⟩ => ⟨S4096x128x128, .i32⟩
  | .hbm, ⟨38, _⟩ => ⟨S4096x128x128, .i32⟩
  | .hbm, ⟨39, _⟩ => ⟨S4096x128x128, .i1⟩
  | .hbm, ⟨40, _⟩ => ⟨S_, .f32⟩
  | .hbm, ⟨41, _⟩ => ⟨S4096x128x128, .f32⟩
  | .hbm, ⟨42, _⟩ => ⟨S4096x128x128, .i1⟩
  | .hbm, ⟨43, _⟩ => ⟨S4096x128x128, .i1⟩
  | .hbm, ⟨44, _⟩ => ⟨S_, .f32⟩
  | .hbm, ⟨45, _⟩ => ⟨S4096x128x128, .f32⟩
  | .hbm, ⟨46, _⟩ => ⟨S4096x128x128, .f32⟩
  | .hbm, ⟨47, _⟩ => ⟨S_, .f32⟩
  | .hbm, ⟨48, _⟩ => ⟨S_, .f32⟩
  | _, _ => ⟨S524288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_0 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_1 : Ref sig .tc := ⟨.hbm, 44, rfl⟩
abbrev main_call1_v0 : Ref sig .tc := ⟨.hbm, 45, rfl⟩
abbrev main_v18 : Ref sig .tc := ⟨.hbm, 46, rfl⟩
abbrev main_cst_2 : Ref sig .tc := ⟨.hbm, 47, rfl⟩
abbrev main_v19 : Ref sig .tc := ⟨.hbm, 48, rfl⟩

abbrev nD : Nat := 1
abbrev τ : Topo := Topo.v7x

variable {F : FTy → Type} [FloatOps F]

class Facts₀ : Prop where
  shapeCasts_S524288_S4096x128 : S524288.ShapeCasts S4096x128
  bcast_S_S4096x128 : S_.BroadcastsInDim S4096x128 (![] : Fin 0 → Fin S4096x128.rank)
  shapeCasts_S4096x128_S4096x128x1 : S4096x128.ShapeCasts S4096x128x1
  bcast_S_S4096x128x1 : S_.BroadcastsInDim S4096x128x1 (![] : Fin 0 → Fin S4096x128x1.rank)
  bcast_S1_S1x1x1_2 : S1.BroadcastsInDim S1x1x1 (![2] : Fin 1 → Fin S1x1x1.rank)
  bcast_S1x1x1_S4096x128x1_0_1_2 : S1x1x1.BroadcastsInDim S4096x128x1 (![0, 1, 2] : Fin 3 → Fin S4096x128x1.rank)
  reducesTo_S4096x128x1_S4096x128_d2 : S4096x128x1.ReducesTo [2] S4096x128
  h_S_ : 0 < S_.numel
  bcast_S4096x128_S4096x1x128_0_2 : S4096x128.BroadcastsInDim S4096x1x128 (![0, 2] : Fin 2 → Fin S4096x1x128.rank)
  bcast_S4096x128_S4096x128x1_0_1 : S4096x128.BroadcastsInDim S4096x128x1 (![0, 1] : Fin 2 → Fin S4096x128x1.rank)
  bcast_S4096x1x128_S4096x128x128_0_1_2 : S4096x1x128.BroadcastsInDim S4096x128x128 (![0, 1, 2] : Fin 3 → Fin S4096x128x128.rank)
  bcast_S4096x128x1_S4096x128x128_0_1_2 : S4096x128x1.BroadcastsInDim S4096x128x128 (![0, 1, 2] : Fin 3 → Fin S4096x128x128.rank)
  bcast_S_S4096x128x128 : S_.BroadcastsInDim S4096x128x128 (![] : Fin 0 → Fin S4096x128x128.rank)
  bcast_S128_S1x1x128_2 : S128.BroadcastsInDim S1x1x128 (![2] : Fin 1 → Fin S1x1x128.rank)
  bcast_S1x1x128_S4096x128x128_0_1_2 : S1x1x128.BroadcastsInDim S4096x128x128 (![0, 1, 2] : Fin 3 → Fin S4096x128x128.rank)
  reducesTo_S4096x128x128_S_d0_1_2 : S4096x128x128.ReducesTo [0, 1, 2] S_
  gather_S4096x128_S4096x128x1_S4096x128_n_1_0_0_1_2_11_wf : GatherDims.WF S4096x128 S4096x128x1 S4096x128 [] [1] [0] [1] [0] 2 ![1, 1]

variable [Facts₀]

def gather_S4096x128_S4096x128x1_S4096x128_n_1_0_0_1_2_11 : GatherDims S4096x128 S4096x128x1 S4096x128 where
  offsetDims := []
  collapsedSliceDims := [1]
  operandBatchingDims := [0]
  startIndicesBatchingDims := [0]
  startIndexMap := [1]
  indexVectorDim := 2
  sliceSizes := ![1, 1]
  wf := gather_S4096x128_S4096x128x1_S4096x128_n_1_0_0_1_2_11_wf

class Facts : Prop extends Facts₀ where

variable [Facts]
-- ==== Proof.Spec.lean ====
/-
  THE MARGIN LOSS both programs compute, as one function of the flat score array and the rank table.

  The scores are 4096 rows of 128. For row `b`, rank slot `r` and hypothesis `j` the term is
  `max (s[b, j] - s[b, a] + margin) 0` when `j` exceeds the rank word `w = werRank[b, r]` (read signed), and `0`
  otherwise; `a` is the anchor's column, the rank word with 128 added when it is negative, read modulo 128. The loss
  is the sum of the terms over all `(b, r, j)`.

  Two ways of gating a term meet here: a product with the indicator `1` / `0` of `j > w` (`0 * x = 0` and
  `1 * x = x` hold on every extended real), and a select on `j > w` AND `d > 0` between `d` and `0`, which is
  `max d 0` behind the first test. And one way of averaging: a block's partial sum times `1/128`, copied to 128 lanes
  and summed over them, is the partial sum again on every extended real, because the extended reals' product is
  commutative and associative and `(1/128) * 128 = 1`.
-/
import Idealize.ShloMosaic.PureOps.Ideal.Laws
import Idealize.ShloMosaic.Lib.ValueIdx

noncomputable section

namespace Cert.MarginLoss

open Idealize.ShloMosaic Idealize.ShloMosaic.ValueIdx

abbrev Flat : Shape := ⟨1, ![524288]⟩
abbrev Tab : Shape := ⟨2, ![4096, 128]⟩

/-- The margin: the one word both programs carry; its value is never needed. -/
abbrev margin : EReal := Ideal.ofBits .f32 0x3DCCCCCD#32

/-- A rank word with 128 added when it is negative (an index counted from the end of an axis of 128). -/
def wrapNeg (w : BitVec 32) : BitVec 32 := Scalar.select (IntOp.cmpi .slt w 0#32) (IntOp.addi w 128#32) w

/-- The anchor's column: the wrapped rank word read unsigned, modulo 128. -/
def anchorCol (w : BitVec 32) : Fin 128 := ⟨(wrapNeg w).toNat % 128, Nat.mod_lt _ (by decide)⟩

/-- One term: hypothesis `j` of a row against the anchor the rank word `w` names. -/
def hinge (row : Fin 128 → EReal) (w : BitVec 32) (j : Fin 128) : EReal :=
  if w.slt (BitVec.ofNat 32 j.val) = true then max (row j - row (anchorCol w) + margin) 0 else 0

/-- Row `b` of the flat score array. -/
def rowOf (s : Flat.Idx → EReal) (b : Fin 4096) : Fin 128 → EReal :=
  fun j => s (ix1 ⟨b.val * 128 + j.val, by have := b.isLt; have := j.isLt; omega⟩)

/-- The loss. -/
def loss (s : Flat.Idx → EReal) (w : Tab.Idx → BitVec 32) : EReal :=
  ∑ b : Fin 4096, ∑ r : Fin 128, ∑ j : Fin 128, hinge (rowOf s b) (w (ix2 b r)) j

/-! ## The two gates -/

/-- The indicator of `j > w`, widened to a word, read as a signed integer and multiplied in. -/
theorem gate_mul (w jw : BitVec 32) (x : EReal) :
    (((BitVec.setWidth 32 (IntOp.cmpi .sgt jw w)).toInt : ℝ) : EReal) * x = if w.slt jw = true then x else 0 := by
  show (((BitVec.setWidth 32 (BitVec.ofBool (w.slt jw))).toInt : ℝ) : EReal) * x = _
  cases w.slt jw
  · have e : (BitVec.setWidth 32 (BitVec.ofBool false)).toInt = 0 := by decide
    rw [e]; simp
  · have e : (BitVec.setWidth 32 (BitVec.ofBool true)).toInt = 1 := by decide
    rw [e]; simp

/-- The select between `d` and `0` on `j > w` and `d > 0`. -/
theorem masked_select (w jw : BitVec 32) (d : EReal) :
    Scalar.select (IntOp.andi (IntOp.cmpi .sgt jw w) (Ideal.cmp .ogt d 0)) d 0
      = if w.slt jw = true then max d 0 else 0 := by
  show Scalar.select (IntOp.andi (BitVec.ofBool (w.slt jw)) (BitVec.ofBool (decide (0 < d)))) d 0 = _
  unfold Scalar.select IntOp.andi
  cases w.slt jw
  · simp
  · by_cases hd : 0 < d
    · simp [hd, max_eq_left hd.le]
    · simp [hd, max_eq_right (not_lt.mp hd)]

/-! ## The average over the lanes -/

/-- The word `0x3C000000` denotes `1/128`. -/
theorem ofBits_inv128 : Ideal.ofBits .f32 0x3C000000#32 = ((1 / 128 : ℝ) : EReal) := by
  simp [Ideal.ofBits, Ideal.ieee, -EReal.coe_mul]; norm_num

theorem inv128_mul_128 : ((1 / 128 : ℝ) : EReal) * ((128 : ℕ) : EReal) = 1 := by
  rw [← EReal.coe_natCast, ← EReal.coe_mul]
  norm_num

/-- A value times `1/128`, summed over 128 lanes, is the value: on every extended real. -/
theorem lane_sum (X : EReal) : ∑ _l : Fin 128, X * Ideal.ofBits .f32 0x3C000000#32 = X := by
  rw [ofBits_inv128, Finset.sum_const, Finset.card_univ, Fintype.card_fin, EReal.nsmul_eq_mul, mul_comm, mul_assoc,
    inv128_mul_128, mul_one]

/-! ## Rows in blocks of 64 -/

/-- A sum over the 4096 rows is the sum over 64 blocks of the sums over each block's 64 rows. -/
theorem sum_rows_blocks {M : Type*} [AddCommMonoid M] (f : Fin 4096 → M) :
    ∑ b : Fin 4096, f b
      = ∑ t : Fin 64, ∑ q : Fin 64, f ⟨t.val * 64 + q.val, by have := t.isLt; have := q.isLt; omega⟩ := by
  rw [← Fintype.sum_prod_type']
  refine (Fintype.sum_equiv (finProdFinEquiv (m := 64) (n := 64)) _ _ fun p => ?_).symm
  refine congrArg f (Fin.ext ?_)
  show p.1.val * 64 + p.2.val = p.2.val + 64 * p.1.val
  omega

end Cert.MarginLoss

end
-- ==== Proof.Words.lean ====
/-
  The rank word's arithmetic. For a rank word `w` with `-128 ≤ w < 128` (read signed) the wrapped word — `w + 128` when
  `w` is negative, else `w` — lies in `[0, 128)`: adding 128 does not overflow there. So the test `0 ≤ · ≤ 127` on it
  holds, reading it signed and clamping into `[0, 127]` changes nothing, and neither does reading it unsigned modulo 128:
  all three readings name one column.
-/
import proofs.«424168_j64106681860461_3_alg».proof.Proof.Spec
import Idealize.ShloMosaic.Lib.WordArith

noncomputable section

namespace Cert.MarginLoss

open Idealize.ShloMosaic

/-- The wrapped word read signed. -/
theorem wrapNeg_toInt (w : BitVec 32) (h1 : -128 ≤ w.toInt) (h2 : w.toInt < 128) :
    (wrapNeg w).toInt = if w.toInt < 0 then w.toInt + 128 else w.toInt := by
  have e0 : (0#32 : BitVec 32).toInt = 0 := by decide
  have e128 : (128#32 : BitVec 32).toInt = 128 := by decide
  show (Scalar.select (BitVec.ofBool (w.slt 0#32)) (w + 128#32) w).toInt = _
  unfold Scalar.select
  by_cases h : w.toInt < 0
  · have hs : w.slt 0#32 = true := BitVec.slt_iff_toInt_lt.mpr (by rw [e0]; exact h)
    rw [hs, if_pos h, if_pos (by decide)]
    rw [WordArith.toInt_add_of_bounds _ _ (by rw [e128]; omega) (by rw [e128]; omega), e128]
  · have hs : w.slt 0#32 = false := by
      rw [Bool.eq_false_iff]; intro hc; exact h (by have := BitVec.slt_iff_toInt_lt.mp hc; rwa [e0] at this)
    rw [hs, if_neg h, if_neg (by decide)]

theorem wrapNeg_bounds (w : BitVec 32) (h1 : -128 ≤ w.toInt) (h2 : w.toInt < 128) :
    0 ≤ (wrapNeg w).toInt ∧ (wrapNeg w).toInt < 128 := by
  rw [wrapNeg_toInt w h1 h2]; split <;> omega

/-- The range test `0 ≤ x ≤ 127` on a word in `[0, 128)`. -/
theorem inrange_one (x : BitVec 32) (h : 0 ≤ x.toInt ∧ x.toInt < 128) :
    IntOp.andi (IntOp.cmpi .sge x 0#32) (IntOp.cmpi .sle x 127#32) = 1#1 := by
  have e0 : (0#32 : BitVec 32).toInt = 0 := by decide
  have e127 : (127#32 : BitVec 32).toInt = 127 := by decide
  show IntOp.andi (BitVec.ofBool ((0#32 : BitVec 32).sle x)) (BitVec.ofBool (x.sle 127#32)) = 1#1
  have a : (0#32 : BitVec 32).sle x = true := BitVec.sle_iff_toInt_le.mpr (by rw [e0]; exact h.1)
  have b : x.sle 127#32 = true := BitVec.sle_iff_toInt_le.mpr (by rw [e127]; omega)
  rw [a, b]; decide

/-- The anchor's column is the wrapped word read signed and clamped into `[0, 127]`. -/
theorem anchorCol_val (w : BitVec 32) (h1 : -128 ≤ w.toInt) (h2 : w.toInt < 128) :
    (anchorCol w).val = min (wrapNeg w).toInt.toNat (128 - 1) := by
  obtain ⟨b0, b1⟩ := wrapNeg_bounds w h1 h2
  have e := BitVec.toInt_eq_toNat_cond (wrapNeg w)
  have hl := (wrapNeg w).isLt
  show (wrapNeg w).toNat % 128 = _
  omega

/-- A rank word below a hypothesis number `j < 128` (signed) is below 128. -/
theorem lt_128_of_slt (w : BitVec 32) (j : Fin 128) (h : w.slt (BitVec.ofNat 32 j.val) = true) : w.toInt < 128 := by
  have hj := j.isLt
  have e : (BitVec.ofNat 32 j.val).toInt = j.val := by
    rw [BitVec.toInt_eq_toNat_cond, BitVec.toNat_ofNat]
    have : j.val % 2 ^ 32 = j.val := Nat.mod_eq_of_lt (by omega)
    rw [this]; split <;> omega
  have := BitVec.slt_iff_toInt_lt.mp h
  omega

end Cert.MarginLoss

end
-- ==== Proof.LibIdx3.lean ====
/-
  A rank-3 index set is the product of its three coordinate ranges, so a sum over it (over any commutative
  monoid) is the triple sum over the coordinates, outermost axis first.
-/
import Idealize.ShloMosaic.Lib.ValueIdx

noncomputable section

namespace Cert.Lib.Idx3

open Idealize.ShloMosaic Idealize.ShloMosaic.ValueIdx

/-- An index of a rank-3 shape is the triple of its coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Lib.Idx3

end
-- ==== Proof.LibTakeAlong.lean ====
/-
  `stablehlo.gather` as jnp's `take_along_axis(x, idx, axis=1)` lowers it for a table `x : [R, C]` and indices
  `idx : [R, C]` (carried as `[R, C, 1]`): axis 0 is a batching axis of operand and indices, axis 1 is collapsed and is the
  one axis the start index names, every slice has one element. Result element `(b, r)` is the table's row `b` at the
  column `idx[b, r, 0]`, read as a signed integer and clamped into `[0, C - 1]`.
-/
import Idealize.ShloMosaic.Lib.ValueIdx

noncomputable section

namespace Cert.Lib.TakeAlong

open Idealize.ShloMosaic Idealize.ShloMosaic.ValueIdx

variable {α : Type}

/-- Those dimension numbers; their conditions `wf` are decided on a program's literal shapes. -/
abbrev alongDims (R C : Nat)
    (wf : GatherDims.WF ⟨2, ![R, C]⟩ ⟨3, ![R, C, 1]⟩ ⟨2, ![R, C]⟩ [] [1] [0] [1] [0] 2 ![1, 1]) :
    GatherDims ⟨2, ![R, C]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

/-- THE GATHER READ AT `(b, r)`: row `b` of the table at the column the start index `idx[b, r, 0]` names, read signed
    and clamped into `[0, C - 1]`. -/
theorem gather_along_apply {R C w : Nat} (hC : 0 < C)
    (wf : GatherDims.WF ⟨2, ![R, C]⟩ ⟨3, ![R, C, 1]⟩ ⟨2, ![R, C]⟩ [] [1] [0] [1] [0] 2 ![1, 1])
    (x : (⟨2, ![R, C]⟩ : Shape).Idx → α) (idx : IVec ⟨3, ![R, C, 1]⟩ w) (b : Fin R) (r : Fin C) :
    Host.gather (alongDims R C wf) x idx (ix2 b r)
      = x (ix2 b ⟨min (idx (ix3 b r (0 : Fin 1))).toInt.toNat (C - 1), by omega⟩) := by
  unfold Host.gather
  congr 1
  funext a
  refine Fin.ext ?_
  match a with
  | ⟨0, _⟩ =>
    show (alongDims R C wf).start (ix2 b r) idx 0 + (alongDims R C wf).batchCoord (ix2 b r) 0
        + (alongDims R C wf).offCoord (ix2 b r) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    show (alongDims R C wf).start (ix2 b r) idx 1 + (alongDims R C wf).batchCoord (ix2 b r) 1
        + (alongDims R C wf).offCoord (ix2 b r) 1 = min (idx (ix3 b r (0 : Fin 1))).toInt.toNat (C - 1)
    rw [GatherDims.batchCoord_eq_zero _ _ _ (fun h => Nat.one_ne_zero (Fin.val_eq_of_eq (List.mem_singleton.mp h))),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R C wf).startIndexMap from List.mem_singleton.mpr rfl)]
    have hsi : (alongDims R C wf).siIdx (ix2 b r) ⟨List.idxOf (1 : Fin 2) (alongDims R C wf).startIndexMap,
        List.idxOf_lt_length_iff.2 (List.mem_singleton.mpr rfl)⟩ = ix3 b r (0 : Fin 1) := by
      funext c; refine Fin.ext ?_
      match c with
      | ⟨0, _⟩ => rfl
      | ⟨1, _⟩ => rfl
      | ⟨2, _⟩ => rfl
    rw [hsi]
    rfl

end Cert.Lib.TakeAlong

end
-- ==== Proof.RefValue.lean ====
/-
  THE REFERENCE'S RESULT IS THE MARGIN LOSS, when every rank word is at least `-128` (read signed).

  The reference sums, over all `(b, r, j)`, the select between `d` and `0` on "`j` exceeds the rank word `w`, and
  `d > 0`", where `d = s[b, j] - anchor[b, r] + margin`: that is `max d 0` behind the first test. Its anchor is a gather
  along the row at the wrapped rank word, replaced by a fill value where the wrapped word is outside `[0, 127]`. Behind
  the first test `w < j ≤ 127`, and with `-128 ≤ w` the wrapped word is inside `[0, 128)`: the range test passes, the
  gather's clamp changes nothing, and the anchor is the score in the column the loss names. Where the first test
  fails the term is `0` whatever the anchor is.
-/
import proofs.«424168_j64106681860461_3_alg».proof.Proof.RefRead
import proofs.«424168_j64106681860461_3_alg».proof.Proof.Spec
import proofs.«424168_j64106681860461_3_alg».proof.Proof.Words
import proofs.«424168_j64106681860461_3_alg».proof.Proof.LibIdx3
import proofs.«424168_j64106681860461_3_alg».proof.Proof.LibTakeAlong
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadCopy
open Idealize.ShloMosaic Idealize.ShloMosaic.ValueIdx Cert.MarginLoss Cert.Lib.Idx3 Cert.Lib.TakeAlong

variable (x0 : (⟨S524288, .f32⟩ : BufTy).Contents (Elt Ideal)) (x2 : (⟨S4096x128, .i32⟩ : BufTy).Contents (Elt Ideal))

/-- The flat scores reshaped to rows, at `(b, j)`. -/
theorem scores_at (b : Fin 4096) (j : Fin 128) : val_main_v0 (F := Ideal) x0 (ix2 b j) = rowOf x0 b j := by
  rw [val_main_v0_apply]
  unfold rowOf
  refine congrArg x0 (funext fun a => ?_)
  match a with
  | ⟨0, _⟩ => rfl

/-- The start index the gather is handed at `(b, r)`: the wrapped rank word. -/
theorem start_word (b : Fin 4096) (r : Fin 128) :
    val_main_call0_v5 (F := Ideal) x2 (ix3 b r (0 : Fin 1)) = wrapNeg (x2 (ix2 b r)) := by
  rw [val_main_call0_v5_apply]
  have e : idx_main_call0_v5 (ix3 b r (0 : Fin 1)) = ix2 b r := by
    funext a; refine Fin.ext ?_
    have hb := b.isLt; have hr := r.isLt
    match a with
    | ⟨0, _⟩ => show ((b.val * 128 + r.val) * 1 + 0) / 128 = b.val; omega
    | ⟨1, _⟩ => show ((b.val * 128 + r.val) * 1 + 0) % 128 = r.val; omega
  rw [e]
  simp only [val_main_call0_v4_apply, val_main_call0_v1_apply, val_main_call0_v0_apply, val_main_call0_c_apply,
    val_main_call0_v3_apply, val_main_call0_v2_apply, val_main_call0_c_0_apply]
  rfl

/-- The unit axis of the start indices is reduced away: the witness that names the inserted index. -/
theorem reduces_last : S4096x128x1.Reduces [2] S4096x128 := by
  obtain ⟨h, hb⟩ := reducesTo_S4096x128x1_S4096x128_d2
  exact ⟨h, by decide, hb⟩

/-- The range test on the wrapped word, folded over the unit axis, passes when the word is in `[0, 128)`. -/
theorem mask_one (b : Fin 4096) (r : Fin 128)
    (h : 0 ≤ (wrapNeg (x2 (ix2 b r))).toInt ∧ (wrapNeg (x2 (ix2 b r))).toInt < 128) :
    val_main_call0_v12 (F := Ideal) x2 (ix2 b r) = 1#1 := by
  unfold val_main_call0_v12
  rw [Host.reduce_eq_fold_single IntOp.andi _ _ reducesTo_S4096x128x1_S4096x128_d2
    reduces_last h_S_ (ix2 b r)]
  have hu : (Finset.univ : Finset (Fin (S4096x128x1.size 2)))
      = {(⟨0, Nat.one_pos⟩ : Fin (S4096x128x1.size 2))} := by decide
  rw [hu, Finset.fold_singleton]
  have e : Shape.Reduces.lift reduces_last (ix2 b r) (⟨0, Nat.one_pos⟩ : Fin (S4096x128x1.size 2))
      = ix3 b r (0 : Fin 1) := by
    funext a; refine Fin.ext ?_
    match a with
    | ⟨0, _⟩ => rfl
    | ⟨1, _⟩ => rfl
    | ⟨2, _⟩ => rfl
  show IntOp.andi (val_main_call0_v11 (F := Ideal) x2
      (Shape.Reduces.lift reduces_last (ix2 b r) (⟨0, Nat.one_pos⟩ : Fin (S4096x128x1.size 2)))) 1#1 = 1#1
  rw [e, val_main_call0_v11_apply, val_main_call0_v7_apply, val_main_call0_v10_apply, val_main_call0_v6_apply,
    val_main_call0_c_2_apply, val_main_call0_v9_apply, val_main_call0_v8_apply, val_main_call0_c_1_apply, start_word,
    inrange_one _ h]
  decide

/-- The gathered score at `(b, r)`, for a rank word in `[-128, 128)`: the row's score in the anchor's column. -/
theorem gathered (b : Fin 4096) (r : Fin 128) (h1 : -128 ≤ (x2 (ix2 b r)).toInt) (h2 : (x2 (ix2 b r)).toInt < 128) :
    val_main_call0_v13 (F := Ideal) x0 x2 (ix2 b r) = rowOf x0 b (anchorCol (x2 (ix2 b r))) := by
  unfold val_main_call0_v13
  rw [show gather_S4096x128_S4096x128x1_S4096x128_n_1_0_0_1_2_11
      = alongDims 4096 128 Gen.gather_S4096x128_S4096x128x1_S4096x128_n_1_0_0_1_2_11_wf from rfl,
    gather_along_apply (by decide), scores_at]
  refine congrArg (rowOf x0 b) (Fin.ext ?_)
  show min (val_main_call0_v5 (F := Ideal) x2 (ix3 b r (0 : Fin 1))).toInt.toNat (128 - 1) = (anchorCol (x2 (ix2 b r))).val
  rw [start_word, anchorCol_val _ h1 h2]

/-- The reference's anchor at `(b, r)`, for a rank word in `[-128, 128)`. -/
theorem anchor (b : Fin 4096) (r : Fin 128) (h1 : -128 ≤ (x2 (ix2 b r)).toInt) (h2 : (x2 (ix2 b r)).toInt < 128) :
    val_main_v1 (F := Ideal) x0 x2 (ix2 b r) = rowOf x0 b (anchorCol (x2 (ix2 b r))) := by
  rw [val_main_v1_apply, mask_one x2 b r (wrapNeg_bounds _ h1 h2), select_one, gathered x0 x2 b r h1 h2]

/-- One term of the reference's sum is the loss's term. -/
theorem term (b : Fin 4096) (r j : Fin 128) (hw : -128 ≤ (x2 (ix2 b r)).toInt) :
    val_main_v18 (F := Ideal) x0 x2 (ix3 b r j) = hinge (rowOf x0 b) (x2 (ix2 b r)) j := by
  have e12 : idx_main_v10 (idx_main_v12 (ix3 b r j)) = ix1 j := by
    funext a; match a with | ⟨0, _⟩ => rfl
  have e13 : idx_main_v11 (idx_main_v13 (ix3 b r j)) = ix2 b r := by
    funext a; match a with | ⟨0, _⟩ => rfl | ⟨1, _⟩ => rfl
  have e4 : idx_main_v2 (idx_main_v4 (ix3 b r j)) = ix2 b j := by
    funext a; match a with | ⟨0, _⟩ => rfl | ⟨1, _⟩ => rfl
  have e5 : idx_main_v3 (idx_main_v5 (ix3 b r j)) = ix2 b r := by
    funext a; match a with | ⟨0, _⟩ => rfl | ⟨1, _⟩ => rfl
  rw [val_main_v18_apply, val_main_v17_apply, val_main_v14_apply, val_main_v16_apply, val_main_call1_v0_apply,
    val_main_cst_1_apply, val_main_v15_apply, val_main_cst_0_apply, val_main_v12_apply, val_main_v10_apply, e12,
    val_main_v9_apply, val_main_v13_apply, val_main_v11_apply, e13, val_main_v8_apply, val_main_v6_apply,
    val_main_v7_apply, val_main_cst_apply, val_main_v4_apply, val_main_v2_apply, e4, scores_at, val_main_v5_apply,
    val_main_v3_apply, e5]
  have z : FloatOps.ofBits (F := Ideal) .f32 0x00000000#32 = (0 : EReal) := Ideal.ofBits_zero_f32
  rw [z]
  show Scalar.select (IntOp.andi (IntOp.cmpi .sgt (BitVec.ofNat 32 j.val) (x2 (ix2 b r)))
      (Ideal.cmp .ogt (rowOf x0 b j - val_main_v1 (F := Ideal) x0 x2 (ix2 b r) + margin) 0))
      (rowOf x0 b j - val_main_v1 (F := Ideal) x0 x2 (ix2 b r) + margin) 0 = _
  rw [masked_select]
  unfold hinge
  by_cases hlt : (x2 (ix2 b r)).slt (BitVec.ofNat 32 j.val) = true
  · rw [if_pos hlt, if_pos hlt, anchor x0 x2 b r hw (lt_128_of_slt _ j hlt)]
  · rw [if_neg hlt, if_neg hlt]

/-- THE REFERENCE'S RESULT: the loss. -/
theorem result_eq (hw : ∀ (b : Fin 4096) (r : Fin 128), -128 ≤ (x2 (ix2 b r)).toInt) (i : S_.Idx) :
    val_main_v19 (F := Ideal) x0 x2 i = loss x0 x2 := by
  rw [val_main_v19_apply, val_main_cst_2_apply]
  show Ideal.ofBits .f32 0x00000000#32 + _ = _
  rw [Ideal.ofBits_zero_f32, zero_add, sum_idx3]
  unfold loss
  exact Finset.sum_congr rfl fun b _ => Finset.sum_congr rfl fun r _ => Finset.sum_congr rfl fun j _ =>
    term x0 x2 b r j (hw b r)

end Cert.ReferenceIdeal.RefValue

end
-- ==== Proof.PreDecode.lean ====
/-
  THE PRECONDITION, READ BACK at the rank table. The printed predicate is the conjunction of two `all`s: every score is
  finite, and every rank word, compared signed, is at least the word `4294967168`, which is `-128`. From the predicate
  being 1 the second conjunct gives, at every `(b, r)`, `-128 ≤ werRank[b, r]` read signed.
-/
import proofs.«424168_j64106681860461_3_alg».proof.Pre_finite_inputs
import Idealize.ShloMosaic.Lib.ReduceAll
import Idealize.ShloMosaic.Lib.IdealHost
import Idealize.ShloMosaic.Lib.ValueIdx

noncomputable section

namespace Cert.Pre_finite_inputs.Decode

open Idealize.ShloMosaic Idealize.ShloMosaic.ValueIdx Cert.Pre_finite_inputs

instance : Subsingleton S_.Idx := ⟨fun _ _ => funext fun d => d.elim0⟩

variable [Facts] {F : FTy → Type} [FloatOps F]

/-- Every rank word is at least `-128`, read signed. -/
theorem ranks_ge (a0 : FVec F S524288 .f32) (a1 : IVec S4096 32) (a2 : IVec S4096x128 32)
    (h : fn (F := F) a0 a1 a2 = fun _ => 1#1) (b : Fin 4096) (r : Fin 128) : -128 ≤ (a2 (ix2 b r)).toInt := by
  have h0 := congrFun h ix0
  dsimp only [fn] at h0
  have h1 := (IntOp.andi_eq_one.1 h0).2
  have h2 := Host.reduce_andi_all _ _ _ _ _ h1 (ix2 b r)
  have h3 : IntOp.cmpi .sge (a2 (ix2 b r)) (4294967168#32 : BitVec 32) = 1#1 := by
    have e := broadcastInDim_scalar_apply Facts.bcast_S_S4096x128 (constantI S_ 32 (4294967168#32 : BitVec 32)) (ix2 b r)
    rw [show cmpi .sge a2 (broadcastInDim S4096x128 ![] Facts.bcast_S_S4096x128 (constantI S_ 32 4294967168#32)) (ix2 b r)
      = IntOp.cmpi .sge (a2 (ix2 b r)) (broadcastInDim S4096x128 ![] Facts.bcast_S_S4096x128 (constantI S_ 32 4294967168#32) (ix2 b r))
      from rfl, e] at h2
    exact h2
  have e128 : (4294967168#32 : BitVec 32).toInt = -128 := by decide
  have h4 : ((4294967168#32 : BitVec 32).sle (a2 (ix2 b r))) = true := by
    have : BitVec.ofBool ((4294967168#32 : BitVec 32).sle (a2 (ix2 b r))) = 1#1 := h3
    revert this; cases ((4294967168#32 : BitVec 32).sle (a2 (ix2 b r))) <;> simp
  have h5 := BitVec.sle_iff_toInt_le.mp h4
  rw [e128] at h5
  exact h5

end Cert.Pre_finite_inputs.Decode

end
-- ==== Proof.BlockValue.lean ====
/-
  WHAT ONE GRID POINT STORES. A point loads 64 rows of scores `x0` and their 64 rows of rank words `x1`, and stores
  one row of 128 lanes. Every lane holds the same value: the sum over the block's `(q, r, j)` of the loss's term of row
  `q`, times the word `0x3C000000`.

  The body gathers each row's anchors along the lanes at the wrapped rank word, read unsigned modulo 128: the anchor's
  column. It forms `s[q, j] - anchor[q, r] + margin` on a [64, 128, 128] array, clips it below at zero, and multiplies
  by the indicator of "`j` exceeds the rank word" converted to a float: the loss's term. Three sums follow, over `j`,
  over `r`, over `q`, then the product with the word and the copy to the lanes.
-/
import proofs.«424168_j64106681860461_3_alg».proof.Proof.Gen.KernelIdeal.Skeleton
import proofs.«424168_j64106681860461_3_alg».proof.Proof.Spec
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx Cert.MarginLoss

/-! ## Two layouts read at an index -/

section Layout
variable {α : Type}

/-- A [64, 128] array given a last unit axis and copied along it: at `(q, r, j)` it is the array at `(q, r)`. -/
theorem along_last (x : S64x128.Idx → α) (q : Fin 64) (r j : Fin 128) :
    broadcastTo S64x128x128 (shapeCast S64x128x1 x shapeCasts_S64x128_S64x128x1) broadcasts_S64x128x1_S64x128x128 (ix3 q r j)
      = x (ix2 q r) := by
  refine (broadcastTo_apply _ _ (ix3 q r j) (ix3 q r (0 : Fin 1)) (fun a => ?_)).trans ?_
  · match a with
    | ⟨0, _⟩ => rfl
    | ⟨1, _⟩ => rfl
    | ⟨2, _⟩ => rfl
  · exact shapeCast_apply _ _ _ _ (by
      rw [Shape.rowMajor_val_two, Shape.rowMajor_val_three]
      show q.val * 128 + r.val = (q.val * 128 + r.val) * 1 + 0
      omega)

/-- A [64, 128] array given a middle unit axis and copied along it: at `(q, r, j)` it is the array at `(q, j)`. -/
theorem along_mid (x : S64x128.Idx → α) (q : Fin 64) (r j : Fin 128) :
    broadcastTo S64x128x128 (shapeCast S64x1x128 x shapeCasts_S64x128_S64x1x128) broadcasts_S64x1x128_S64x128x128 (ix3 q r j)
      = x (ix2 q j) := by
  refine (broadcastTo_apply _ _ (ix3 q r j) (ix3 q (0 : Fin 1) j) (fun a => ?_)).trans ?_
  · match a with
    | ⟨0, _⟩ => rfl
    | ⟨1, _⟩ => rfl
    | ⟨2, _⟩ => rfl
  · exact shapeCast_apply _ _ _ _ (by
      rw [Shape.rowMajor_val_two, Shape.rowMajor_val_three]
      show q.val * 128 + j.val = (q.val * 1 + 0) * 128 + j.val
      omega)

end Layout

/-! ## The body's pieces -/

variable (x0 : Vec Ideal S64x128 .f32) (x1 : Vec Ideal S64x128 .i32)

/-- The block's anchors: each row gathered along its lanes at the wrapped rank words. -/
def anchors : FVec Ideal S64x128 .f32 :=
  dynamicGather 1 (shapeCast S64x128 x0 shapeCasts_S64x128_S64x128)
    (shapeCast S64x128 (shapeCast S64x128x1 (select (cmpi .slt x1 (broadcast S64x128 0#32))
      (addi x1 (broadcast S64x128 128#32)) x1) shapeCasts_S64x128_S64x128x1) shapeCasts_S64x128x1_S64x128)

/-- The gated, clipped differences on the [64, 128, 128] array. -/
def gated : FVec Ideal S64x128x128 .f32 :=
  mulf
    (sitofp .f32 (extui 32 (cmpi .sgt (iota .tc S64x128x128 32 [2] iota_S64x128x128_d2_w32)
      (broadcastTo S64x128x128 (shapeCast S64x128x1 x1 shapeCasts_S64x128_S64x128x1) broadcasts_S64x128x1_S64x128x128)) natLt_1_32))
    (maximumf
      (addf
        (subf
          (broadcastTo S64x128x128 (shapeCast S64x1x128 (shapeCast S64x128 x0 shapeCasts_S64x128_S64x128)
            shapeCasts_S64x128_S64x1x128) broadcasts_S64x1x128_S64x128x128)
          (broadcastTo S64x128x128 (shapeCast S64x128x1 (anchors x0 x1) shapeCasts_S64x128_S64x128x1)
            broadcasts_S64x128x1_S64x128x128))
        (broadcast S64x128x128 (Scalar.ofBits .f32 0x3DCCCCCD#32)))
      (broadcast S64x128x128 (Scalar.ofBits .f32 0x00000000#32)))

/-- The block's partial sum: over `j`, then over `r`, then over the rows. -/
def blockSum : FVec Ideal S1 .f32 :=
  multiReduction .add [0] S1
    (shapeCast S64x1
      (multiReduction .add [1] S64
        (multiReduction .add [2] S64x128 (gated x0 x1) 0x00000000#32 reduces_S64x128x128_S64x128 (.inl rfl) rfl)
        0x00000000#32 reduces_S64x128_S64 (.inl rfl) rfl)
      shapeCasts_S64_S64x1)
    0x00000000#32 reduces_S64x1_S1 (.inl rfl) rfl

/-- The stored row is the partial sum times the word, copied to the 128 lanes. -/
theorem pay_eq : k0_pay1 (F := Ideal) x0 x1
    = broadcastTo S1x1x128
        (shapeCast S1x1x1
          (shapeCast S1x1x1
            (mulf (shapeCast S1x1 (blockSum x0 x1) shapeCasts_S1_S1x1) (broadcast S1x1 (Scalar.ofBits .f32 0x3C000000#32)))
            shapeCasts_S1x1_S1x1x1)
          shapeCasts_S1x1x1_S1x1x1)
        broadcasts_S1x1x1_S1x1x128 := rfl

/-! ## The pieces at an index -/

/-- An anchor: the row's score in the anchor's column. -/
theorem anchors_apply (q : Fin 64) (r : Fin 128) :
    anchors x0 x1 (ix2 q r) = x0 (ix2 q (anchorCol (x1 (ix2 q r)))) := by
  unfold anchors
  rw [shapeCast_self, shapeCast_shapeCast]
  unfold dynamicGather
  refine congrArg x0 (funext fun b => ?_)
  match b with
  | ⟨0, _⟩ => rfl
  | ⟨1, _⟩ => rfl

/-- A gated, clipped difference: the loss's term of the block's row `q`. -/
theorem gated_apply (q : Fin 64) (r j : Fin 128) :
    gated x0 x1 (ix3 q r j) = hinge (fun j => x0 (ix2 q j)) (x1 (ix2 q r)) j := by
  have hi : iota .tc S64x128x128 32 [2] iota_S64x128x128_d2_w32 (ix3 q r j) = BitVec.ofNat 32 j.val :=
    iota_single_apply .tc S64x128x128 32 2 _ (ix3 q r j)
  have hs : broadcastTo S64x128x128 (shapeCast S64x1x128 (shapeCast S64x128 x0 shapeCasts_S64x128_S64x128)
      shapeCasts_S64x128_S64x1x128) broadcasts_S64x1x128_S64x128x128 (ix3 q r j) = x0 (ix2 q j) := by
    rw [shapeCast_self]; exact along_mid x0 q r j
  have ha : broadcastTo S64x128x128 (shapeCast S64x128x1 (anchors x0 x1) shapeCasts_S64x128_S64x128x1)
      broadcasts_S64x128x1_S64x128x128 (ix3 q r j) = x0 (ix2 q (anchorCol (x1 (ix2 q r)))) :=
    (along_last _ q r j).trans (anchors_apply x0 x1 q r)
  have z : Scalar.ofBits (F := Ideal) .f32 0x00000000#32 = (0 : EReal) := Ideal.ofBits_zero_f32
  unfold gated
  rw [mulf_apply, sitofp_apply, extui_apply, maximumf_apply, addf_apply, subf_apply, broadcast_apply, broadcast_apply,
    hs, ha, z]
  unfold Idealize.ShloMosaic.cmpi
  dsimp only
  rw [hi, along_last x1 q r j]
  exact gate_mul _ _ _

/-- The innermost sum, over the hypotheses `j`, at `(q, r)`. -/
theorem sum_j (q : Fin 64) (r : Fin 128) :
    multiReduction .add [2] S64x128 (gated x0 x1) 0x00000000#32 reduces_S64x128x128_S64x128 (.inl rfl) rfl (ix2 q r)
      = ∑ j : Fin 128, gated x0 x1 (ix3 q r j) := by
  refine (Ideal.multiReduction_add_single (gated x0 x1) _ reduces_S64x128x128_S64x128 _ _ (ix2 q r)).trans ?_
  refine Finset.sum_congr rfl fun j _ => congrArg (gated x0 x1) ?_
  funext a; refine Fin.ext ?_
  match a with
  | ⟨0, _⟩ => rfl
  | ⟨1, _⟩ => rfl
  | ⟨2, _⟩ => rfl

/-- The middle sum, over the rank slots `r`, at row `q`. -/
theorem sum_r (q : Fin 64) :
    multiReduction .add [1] S64
        (multiReduction .add [2] S64x128 (gated x0 x1) 0x00000000#32 reduces_S64x128x128_S64x128 (.inl rfl) rfl)
        0x00000000#32 reduces_S64x128_S64 (.inl rfl) rfl (ix1 q)
      = ∑ r : Fin 128, ∑ j : Fin 128, gated x0 x1 (ix3 q r j) := by
  refine (Ideal.multiReduction_add_single _ _ reduces_S64x128_S64 _ _ (ix1 q)).trans ?_
  refine Finset.sum_congr rfl fun r _ => Eq.trans (congrArg _ ?_) (sum_j x0 x1 q r)
  funext a; refine Fin.ext ?_
  match a with
  | ⟨0, _⟩ => rfl
  | ⟨1, _⟩ => rfl

/-- The partial sum is the triple sum of the gated differences. -/
theorem blockSum_apply (i : S1.Idx) :
    blockSum x0 x1 i = ∑ q : Fin 64, ∑ r : Fin 128, ∑ j : Fin 128, gated x0 x1 (ix3 q r j) := by
  have hi0 : (i 0).val < 1 := (i 0).isLt
  unfold blockSum
  refine (Ideal.multiReduction_add_single _ _ reduces_S64x1_S1 _ _ i).trans ?_
  refine Finset.sum_congr rfl fun q _ => Eq.trans ?_ (sum_r x0 x1 q)
  exact shapeCast_apply _ _ _ (ix1 q) (by
    rw [Shape.rowMajor_val_one, Shape.rowMajor_val_two]
    show q.val = q.val * 1 + (i 0).val
    omega)

/-- EVERY LANE OF THE STORED ROW: the block's sum of the loss's terms, times the word. -/
theorem pay_apply (y : S1x1x128.Idx) :
    k0_pay1 (F := Ideal) x0 x1 y
      = (∑ q : Fin 64, ∑ r : Fin 128, ∑ j : Fin 128, hinge (fun j => x0 (ix2 q j)) (x1 (ix2 q r)) j)
          * Ideal.ofBits .f32 0x3C000000#32 := by
  rw [pay_eq]
  refine (broadcastTo_apply _ _ y (ix3 (0 : Fin 1) (0 : Fin 1) (0 : Fin 1)) (fun a => ?_)).trans ?_
  · match a with
    | ⟨0, _⟩ => rfl
    | ⟨1, _⟩ => rfl
    | ⟨2, _⟩ => rfl
  rw [shapeCast_self]
  refine (shapeCast_apply _ _ _ (ix2 (0 : Fin 1) (0 : Fin 1)) (by
    rw [Shape.rowMajor_val_two, Shape.rowMajor_val_three]; rfl)).trans ?_
  rw [mulf_apply, broadcast_apply]
  refine congrArg (· * Ideal.ofBits .f32 0x3C000000#32) ?_
  refine (shapeCast_apply _ _ _ (ix1 (0 : Fin 1)) (by
    rw [Shape.rowMajor_val_one, Shape.rowMajor_val_two]; rfl)).trans ?_
  rw [blockSum_apply]
  exact Finset.sum_congr rfl fun q _ => Finset.sum_congr rfl fun r _ => Finset.sum_congr rfl fun j _ =>
    gated_apply x0 x1 q r j

end Cert.KernelIdeal.BlockValue

end
-- ==== Proof.KernelValue.lean ====
/-
  THE KERNEL'S RESULT IS THE MARGIN LOSS, on every input.

  Grid point `t` of 64 loads rows `64 t … 64 t + 63` of the scores (the flat array reshaped to rows by the host) and of
  the rank table, and writes row `t` of a [64, 1, 128] array: in every lane the block's sum of the loss's terms times
  `1/128`. The 64 rows tile that array, so after the region it holds, at `(t, 0, lane)`, block `t`'s sum times `1/128`.
  The host then sums the whole array from zero: over the lanes the factor `1/128` goes (128 equal summands), and the
  sum over the 64 blocks of the sums over each block's 64 rows is the sum over the 4096 rows.
-/
import proofs.«424168_j64106681860461_3_alg».proof.Proof.Gen.KernelIdeal.Frame
import proofs.«424168_j64106681860461_3_alg».proof.Proof.BlockValue
import proofs.«424168_j64106681860461_3_alg».proof.Proof.Spec
import proofs.«424168_j64106681860461_3_alg».proof.Proof.LibIdx3
import Idealize.ShloMosaic.Lib.Pipeline.Value
import Idealize.ShloMosaic.Lib.StableHlo.Run
import Idealize.ShloMosaic.Lib.IdealHost
import Idealize.ShloMosaic.Lib.ValueIdx
import Idealize.ShloMosaic.PureOps.Ideal.Laws

noncomputable section

namespace Cert.KernelIdeal.KValue

open Cert.KernelIdeal Cert.KernelIdeal.Gen Idealize.ShloMosaic Idealize.ShloMosaic.TcCoe Idealize.SL.Sem
open Idealize.ShloMosaic.ValueIdx Cert.MarginLoss Cert.Lib.Idx3 Cert.KernelIdeal.BlockValue
open Idealize.ShloMosaic.Pipeline (Dat)

variable (m : (ℓ : Loc nD τ sig) → Buf (Elt Ideal) ℓ) (ρ : Dev nD → PrngReg)

/-! ## The arrays and the blocks, at their literal types -/

/-- The flat scores and the rank table as launched. -/
abbrev scores (c : Dev nD) : Flat.Idx → EReal := m ((c : Thread nD τ).loc main_arg0)
abbrev ranks (c : Dev nD) : Tab.Idx → BitVec 32 := m ((c : Thread nD τ).loc main_arg2)
/-- The score rows and the rank table as the region finds them, and the blocks a point loads. -/
abbrev sarr (c : Dev nD) : Vec Ideal S4096x128 .f32 := V m c main_v0
abbrev warr (c : Dev nD) : Vec Ideal S4096x128 .i32 := V m c main_arg2
abbrev sblk (c : Dev nD) (t : Fin cfg0.N) : Vec Ideal S64x128 .f32 := iblk m c 0 t
abbrev wblk (c : Dev nD) (t : Fin cfg0.N) : Vec Ideal S64x128 .i32 := iblk m c 1 t

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: point `t` takes block row `t` of each window, block column zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The host's reshape before the region: the score rows are the flat array read row-major. -/
theorem sarr_apply (c : Dev nD) (b : Fin 4096) (j : Fin 128) : sarr m c (ix2 b j) = rowOf (scores m c) b j := by
  have e : sarr m c = shapeCast S4096x128 (scores m c) shapeCasts_S524288_S4096x128 := by
    show StableHlo.after hostOps0 (fun b => m (c, b)) (Proc.devRef .tc main_v0) = _
    after_results
    rfl
  rw [e]
  unfold rowOf
  exact shapeCast_apply _ _ _ _ (by
    rw [Shape.rowMajor_val_one, Shape.rowMajor_val_two]
    show b.val * 128 + j.val = b.val * 128 + j.val
    rfl)

/-- The rank table reaches the region as launched. -/
theorem warr_eq (c : Dev nD) : warr m c = ranks m c := V_main_arg2 m c

/-- Point `t`'s score block is rows `64 t …` of the score rows. -/
theorem sblk_apply (c : Dev nD) (t : Fin cfg0.N) (ht : t.val < 64) (q : Fin 64) (j : Fin 128) :
    sblk m c t (ix2 q j) = sarr m c (ix2 ⟨t.val * 64 + q.val, by have := q.isLt; omega⟩ j) := by
  obtain ⟨e0, e1, -⟩ := idx_facts t
  show V m c main_v0 (((cfg0.win 0).blk t).view.emb (ix2 q j)) = V m c main_v0 _
  refine congrArg (V m c main_v0) (funext fun a => Fin.ext ?_)
  match a with
  | ⟨0, _⟩ => show win0_0.index t (0 : Fin 2) * 64 + 1 * q.val = t.val * 64 + q.val; rw [e0]; omega
  | ⟨1, _⟩ => show win0_0.index t (1 : Fin 2) * 128 + 1 * j.val = j.val; rw [e1]; omega

/-- Point `t`'s rank block is rows `64 t …` of the rank table. -/
theorem wblk_apply (c : Dev nD) (t : Fin cfg0.N) (ht : t.val < 64) (q : Fin 64) (r : Fin 128) :
    wblk m c t (ix2 q r) = warr m c (ix2 ⟨t.val * 64 + q.val, by have := q.isLt; omega⟩ r) := by
  obtain ⟨-, -, e0, e1, -⟩ := idx_facts t
  show V m c main_arg2 (((cfg0.win 1).blk t).view.emb (ix2 q r)) = V m c main_arg2 _
  refine congrArg (V m c main_arg2) (funext fun a => Fin.ext ?_)
  match a with
  | ⟨0, _⟩ => show win0_1.index t (0 : Fin 2) * 64 + 1 * q.val = t.val * 64 + q.val; rw [e0]; omega
  | ⟨1, _⟩ => show win0_1.index t (1 : Fin 2) * 128 + 1 * r.val = r.val; rw [e1]; omega

/-! ## The output array -/

/-- Block `t`'s sum of the loss's terms. -/
def blockLoss (s : Flat.Idx → EReal) (w : Tab.Idx → BitVec 32) (t : Fin 64) : EReal :=
  ∑ q : Fin 64, ∑ r : Fin 128, ∑ j : Fin 128,
    hinge (rowOf s ⟨t.val * 64 + q.val, by have := t.isLt; have := q.isLt; omega⟩)
      (w (ix2 ⟨t.val * 64 + q.val, by have := t.isLt; have := q.isLt; omega⟩ r)) j

/-- What the [64, 1, 128] array ends holding: at `(t, 0, lane)` block `t`'s sum times the word for `1/128`. -/
def outArr (s : Flat.Idx → EReal) (w : Tab.Idx → BitVec 32) : S64x1x128.Idx → EReal :=
  fun i => blockLoss s w (i 0) * Ideal.ofBits .f32 0x3C000000#32

/-- WHAT POINT `t` WRITES BACK is block `t` of that array. -/
theorem flushed_eq (c : Dev nD) (t : Fin cfg0.N) :
    (dats m 0 c).flushed 2 t = ((cfg0.win 2).blk t).view.read (Elt Ideal) (outArr (scores m c) (ranks m c)) := by
  have ht : t.val < 64 := lt_of_lt_of_eq t.isLt N_0
  obtain ⟨-, -, -, -, e0, -⟩ := idx_facts t
  show (cfg0.win 2).cut (grid0.coords t) ((dats m 0 c).after 2 t) = _
  rw [after0_2]
  unfold out0_2
  rw [View.canon_unit_zero hz3]
  simp only [View.ld_unit_zero (S := S64x128) hz2]
  funext y
  show k0_pay1 (sblk m c t) (wblk m c t) y = outArr (scores m c) (ranks m c) (((cfg0.win 2).blk t).view.emb y)
  refine (pay_apply (sblk m c t) (wblk m c t) y).trans ?_
  have hy : (y 0).val < 1 := (y 0).isLt
  have et : ((((cfg0.win 2).blk t).view.emb y) 0 : Fin 64) = ⟨t.val, ht⟩ := Fin.ext (by
    show win0_2.index t (0 : Fin 3) * 1 + 1 * (y 0).val = t.val
    rw [e0]; omega)
  unfold outArr
  rw [et]
  unfold blockLoss
  refine congrArg (· * Ideal.ofBits .f32 0x3C000000#32) ?_
  refine Finset.sum_congr rfl fun q _ => Finset.sum_congr rfl fun r _ => Finset.sum_congr rfl fun j _ => ?_
  have hrow : (fun j => sblk m c t (ix2 q j)) = rowOf (scores m c) ⟨t.val * 64 + q.val, by have := q.isLt; omega⟩ :=
    funext fun j => (sblk_apply m c t ht q j).trans (sarr_apply m c _ j)
  have hwd : wblk m c t (ix2 q r) = ranks m c (ix2 ⟨t.val * 64 + q.val, by have := q.isLt; omega⟩ r) :=
    (wblk_apply m c t ht q r).trans (congrFun (warr_eq m c) _)
  rw [hrow, hwd]

/-- An index of the array is in point `t`'s block iff each coordinate is in the block's range on its axis. -/
theorem mem_blk (t : Fin cfg0.N) (i : S64x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v1).slice (win0_2.rect t)).set ↔ _
  rw [View.set_slice_whole, Rect.mem_set_unit]
  exact Iff.rfl

/-- The 64 blocks tile the array: row `t` is point `t`'s. -/
theorem cover (i : S64x1x128.Idx) :
    ∃ t : Fin cfg0.N, (cfg0.win 2).flush t = true ∧ i ∈ ((cfg0.win 2).blk t).view.set := by
  have h0 : (i 0).val < 64 := (i 0).isLt
  have h1 : (i 1).val < 1 := (i 1).isLt
  have h2 : (i 2).val < 128 := (i 2).isLt
  refine ⟨⟨(i 0).val, lt_of_lt_of_eq h0 N_0.symm⟩, flush0_2 _, ?_⟩
  obtain ⟨-, -, -, -, e0', e1, e2⟩ := idx_facts ⟨(i 0).val, lt_of_lt_of_eq h0 N_0.symm⟩
  have e0 : win0_2.index ⟨(i 0).val, lt_of_lt_of_eq h0 N_0.symm⟩ (0 : Fin 3) = (i 0).val := e0'
  clear e0'
  rw [mem_blk]
  intro a
  match a with
  | ⟨0, _⟩ =>
    show win0_2.index _ (0 : Fin 3) * 1 ≤ (i 0).val ∧ (i 0).val < win0_2.index _ (0 : Fin 3) * 1 + 1
    rw [e0]; constructor <;> omega
  | ⟨1, _⟩ =>
    show win0_2.index _ (1 : Fin 3) * 1 ≤ (i 1).val ∧ (i 1).val < win0_2.index _ (1 : Fin 3) * 1 + 1
    rw [e1]; constructor <;> omega
  | ⟨2, _⟩ =>
    show win0_2.index _ (2 : Fin 3) * 128 ≤ (i 2).val ∧ (i 2).val < win0_2.index _ (2 : Fin 3) * 128 + 128
    rw [e2]; constructor <;> omega

/-- THE ARRAY after the region. -/
theorem final (c : Dev nD) : (dats m 0 c).arrAt 2 cfg0.N = outArr (scores m c) (ranks m c) :=
  (dats m 0 c).arrAt_eq_of_cover 2 (outArr (scores m c) (ranks m c)) (fun t _ => flushed_eq m c t) cover

/-! ## The host's sum over the array -/

/-- The sum of the whole array is the loss. -/
theorem sum_outArr (s : Flat.Idx → EReal) (w : Tab.Idx → BitVec 32) : ∑ i : S64x1x128.Idx, outArr s w i = loss s w := by
  rw [sum_idx3]
  unfold outArr loss
  rw [sum_rows_blocks]
  refine Finset.sum_congr rfl fun t _ => ?_
  rw [Fintype.sum_unique]
  exact lane_sum _

/-- THE KERNEL'S RESULT after @main: the loss of the launched arrays. -/
theorem tail_eq (c : Dev nD) (i : S_.Idx) :
    (Pipeline.afterTail₀ cfgs (dats m) 0 (V0 m) [hostOps1] c main_v2 : S_.Idx → EReal) i
      = loss (scores m c) (ranks m c) := by
  have e : (Pipeline.afterTail₀ cfgs (dats m) 0 (V0 m) [hostOps1] c main_v2 : S_.Idx → EReal)
      = Host.reduceAdd (outArr (scores m c) (ranks m c)) (constant (F := Ideal) S_ .f32 0x00000000#32)
          reducesTo_S64x1x128_S_d0_1_2 h_S_ := by
    unfold Pipeline.afterTail₀
    show StableHlo.after hostOps1 _ (Proc.devRef .tc main_v2) = _
    after_results
    have hw : (Pipeline.withArrays (cfgs 0).spec c (V0 m c) (fun w => (dats m 0 c).arrAt w (cfgs 0).N)
        (Proc.devRef .tc main_v1) : S64x1x128.Idx → EReal) = outArr (scores m c) (ranks m c) :=
      (Pipeline.withArrays_arr spec0 launch0.win.arr_inj c _ _ 2).trans (final m c)
    exact congrArg (fun x => Host.reduceAdd x (constant (F := Ideal) S_ .f32 0x00000000#32)
      reducesTo_S64x1x128_S_d0_1_2 h_S_) hw
  rw [e, hostReduceAdd_apply, Ideal.hostReduceAdd_total reducesTo_S64x1x128_S_d0_1_2 (fun b => b.elim0)]
  show Ideal.ofBits .f32 0x00000000#32 + _ = _
  rw [Ideal.ofBits_zero_f32, zero_add, sum_outArr]

/-- The run re-posted: the result at the loss, the arguments unchanged. -/
theorem run : θ_run defs (onTc (τ := τ) (main (F := Ideal))) ⟨m, fun _ => 0, ρ⟩ fun r => ∀ c : Dev nD,
      r.2.mem ((c.tc : Thread nD τ).loc main_v2) = (fun _ => loss (scores m c) (ranks m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨(((h c).2 main_v2 (Pipeline.mem_restRefs_of main_v2 (by decide) (by decide))).trans
          (funext fun i => tail_eq m c i)),
        (((h c).2 main_arg0 (Pipeline.mem_restRefs_of main_arg0 (by decide) (by decide))).trans (W_main_arg0 m (dats m) c)),
        (((h c).2 main_arg1 (Pipeline.mem_restRefs_of main_arg1 (by decide) (by decide))).trans (W_main_arg1 m (dats m) c)),
        ((h c).1 1).trans (((dats m 0 c).arrAt_in 1 rfl _).trans ((A_eq m c 1).trans (V_main_arg2 m c)))⟩)
    (run_main m ρ)

end Cert.KernelIdeal.KValue

end
-- ==== Proof.lean ====
/-
  The margin loss of an N-best list, kernel against reference, over the extended reals.

  Scores are 4096 rows of 128; a rank table gives each row 128 rank words. For row `b`, rank slot `r` and hypothesis
  `j` the term is `max (s[b, j] - s[b, a] + margin) 0` when `j` exceeds the rank word (read signed) and `0` otherwise,
  `a` the column the rank word names; the loss is the sum of all terms (Proof/Spec.lean).

  The kernel computes exactly that on every input (Proof/BlockValue.lean, Proof/KernelValue.lean): its gather reads the
  wrapped rank word modulo 128, its gate is a product with the indicator of `j > w`, and its 64 block sums, each scaled
  by `1/128` over 128 lanes, add up to the whole sum. The reference gathers with a fill value outside `[0, 127]` and gates
  by a select (Proof/RefValue.lean): it is the loss where every rank word is at least `-128`, which the precondition
  states (Proof/PreDecode.lean). Above 127 the two gathers differ but the gate is closed for every `j`, so no upper
  bound is needed.

  The frames are the generated ones; the reference's is its run with the result dropped. No rewrite was applied between
  the kernel and its idealization.
-/
import proofs.«424168_j64106681860461_3_alg».proof.Defs
import proofs.«424168_j64106681860461_3_alg».proof.Proof.Gen.Kernel
import proofs.«424168_j64106681860461_3_alg».proof.Proof.Gen.Kernel.Skeleton
import proofs.«424168_j64106681860461_3_alg».proof.Proof.Gen.Kernel.Launch
import proofs.«424168_j64106681860461_3_alg».proof.Proof.Gen.Kernel.Points
import proofs.«424168_j64106681860461_3_alg».proof.Proof.Gen.Kernel.Frame
import proofs.«424168_j64106681860461_3_alg».proof.Proof.Gen.KernelIdeal
import proofs.«424168_j64106681860461_3_alg».proof.Proof.Gen.KernelIdeal.Skeleton
import proofs.«424168_j64106681860461_3_alg».proof.Proof.Gen.KernelIdeal.Launch
import proofs.«424168_j64106681860461_3_alg».proof.Proof.Gen.KernelIdeal.Points
import proofs.«424168_j64106681860461_3_alg».proof.Proof.Gen.KernelIdeal.Frame
import proofs.«424168_j64106681860461_3_alg».proof.Proof.Gen.ReferenceIdeal
import proofs.«424168_j64106681860461_3_alg».proof.Proof.Gen.Pre_finite_inputs
import proofs.«424168_j64106681860461_3_alg».proof.Proof.RefRun
import proofs.«424168_j64106681860461_3_alg».proof.Proof.RefRead
import proofs.«424168_j64106681860461_3_alg».proof.Proof.RefValue
import proofs.«424168_j64106681860461_3_alg».proof.Proof.PreDecode
import proofs.«424168_j64106681860461_3_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunCopy.run (F := Ideal) m ρ)

theorem preserves : Cert.preserves_Kernel_KernelIdeal := trivial

/-- Both programs end at the loss of the launched arrays: the kernel on every input, the reference because the
    precondition keeps every rank word at or above `-128`. -/
theorem algebraic : Cert.algebraic_KernelIdeal_ReferenceIdeal := by
  intro m ρ m' ρ' hpre hagree
  refine ⟨fun c => fun _ => Cert.MarginLoss.loss (Cert.KernelIdeal.KValue.scores m c) (Cert.KernelIdeal.KValue.ranks m c),
    Cert.KernelIdeal.KValue.run m ρ, ?_⟩
  refine (θ_run Cert.ReferenceIdeal.defs _ _).mono (fun _ h c => ⟨(h c).1.trans ?_, (h c).2⟩)
    (Cert.ReferenceIdeal.RunCopy.run (F := Ideal) m' ρ')
  rw [Cert.ReferenceIdeal.ReadCopy.val_main_v19_eq, (hagree c).1, (hagree c).2.2]
  funext i
  exact Cert.ReferenceIdeal.RefValue.result_eq _ _
    (fun b r => Cert.Pre_finite_inputs.Decode.ranks_ge _ _ _ (hpre c) b r) i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
